-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x1 : Shape := ⟨2, ![800000, 1]⟩
abbrev S64x64 : Shape := ⟨2, ![64, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S50000x64 .f32) (main_arg1 : FVec F S800000x1 .f32) (main_arg2 : FVec F S64x64 .f32) (main_arg3 : FVec F S64x64 .f32) (main_arg4 : IVec S800000 32) (main_arg5 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S50000x64 : Shape := ⟨2, ![50000, 64]⟩
abbrev S800000x1 : Shape := ⟨2, ![800000, 1]⟩
abbrev S64x64 : Shape := ⟨2, ![64, 64]⟩
abbrev S800000 : Shape := ⟨1, ![800000]⟩
abbrev S_ : Shape := ⟨0, ![]⟩
abbrev S800000x64 : Shape := ⟨2, ![800000, 64]⟩
abbrev S5000x64 : Shape := ⟨2, ![5000, 64]⟩

abbrev nBuf : Space → Nat
  | .hbm => 22
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S800000x1, .f32⟩
  | .hbm, ⟨2, _⟩ => ⟨S64x64, .f32⟩
  | .hbm, ⟨3, _⟩ => ⟨S64x64, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x64, .f32⟩
  | .hbm, ⟨16, _⟩ => ⟨S800000x64, .f32⟩
  | .hbm, ⟨17, _⟩ => ⟨S_, .f32⟩
  | .hbm, ⟨18, _⟩ => ⟨S50000x64, .f32⟩
  | .hbm, ⟨19, _⟩ => ⟨S800000x1, .i32⟩
  | .hbm, ⟨20, _⟩ => ⟨S50000x64, .f32⟩
  | .hbm, ⟨21, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S5000x64, .f32⟩
  | .local _ .vmem, ⟨7, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x1 : Shape := ⟨2, ![800000, 1]⟩
abbrev S64x64 : Shape := ⟨2, ![64, 64]⟩
abbrev S800000 : Shape := ⟨1, ![800000]⟩
abbrev S_ : Shape := ⟨0, ![]⟩
abbrev S800000x64 : Shape := ⟨2, ![800000, 64]⟩

abbrev nBuf : Space → Nat
  | .hbm => 24
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x1, .f32⟩
  | .hbm, ⟨2, _⟩ => ⟨S64x64, .f32⟩
  | .hbm, ⟨3, _⟩ => ⟨S64x64, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x64, .f32⟩
  | .hbm, ⟨16, _⟩ => ⟨S800000x64, .f32⟩
  | .hbm, ⟨17, _⟩ => ⟨S_, .f32⟩
  | .hbm, ⟨18, _⟩ => ⟨S50000x64, .f32⟩
  | .hbm, ⟨19, _⟩ => ⟨S800000x1, .i32⟩
  | .hbm, ⟨20, _⟩ => ⟨S50000x64, .f32⟩
  | .hbm, ⟨21, _⟩ => ⟨S50000x64, .f32⟩
  | .hbm, ⟨22, _⟩ => ⟨S50000x64, .f32⟩
  | .hbm, ⟨23, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.BlockPayload.lean ====
/-
  What one grid point computes, read at an entry.

  The body loads a 5000 × 64 block of node features, the matching block of aggregated messages and
  the two 64 × 64 weight arrays, narrows all four (the identity on the extended reals), multiplies each
  block by its weights into a zero accumulator and adds the two products.  Read at entry `(p, q)` of
  the block, each product is the sum over `k < 64` of the block's row `p` against the weights' column
  `q`: the contraction has one axis of extent 64, so its index set is `Fin 64`, and the operand
  indices a contraction index selects are `(p, k)` on the left and `(k, q)` on the right.
-/
import proofs.«170860_j5866925326658_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The operand indices of the block product -/

/-- The left operand's row is the output's row. -/
theorem lhs_blk_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contraction index. -/
theorem lhs_blk_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row is the contraction index. -/
theorem rhs_blk_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column is the output's column. -/
theorem rhs_blk_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## A block product into a zero accumulator, at an entry -/

/-- Entry `i` of a 5000 × 64 block times a 64 × 64 array, accumulated from zero, is row `i 0` of the block
    against column `i 1` of the array. -/
theorem blockProduct_apply {φ₁ φ₂ : FTy} (a : FVec Ideal S5000x64 φ₁) (b : FVec Ideal S64x64 φ₂) (i : S5000x64.Idx) :
    matmul (F := Ideal) dot_S5000x64_S64x64_S5000x64_1_0_0_1_n_n none a b (constant S5000x64 .f32 0x00000000#32) i
      = ∑ k : Fin 64, a (ix2 (i 0) k) * b (ix2 k (i 1)) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx i ((contrEquiv1 dot_S5000x64_S64x64_S5000x64_1_0_0_1_n_n 64 rfl rfl).symm k) = ix2 (i 0) k := funext fun a => Fin.ext (by
    match a with
    | ⟨0, _⟩ => exact lhs_blk_0 _ _
    | ⟨1, _⟩ => exact (lhs_blk_1 _ _).trans hk)
  have er : dot_S5000x64_S64x64_S5000x64_1_0_0_1_n_n.rhsIdx i ((contrEquiv1 dot_S5000x64_S64x64_S5000x64_1_0_0_1_n_n 64 rfl rfl).symm k) = ix2 k (i 1) := funext fun a => Fin.ext (by
    match a with
    | ⟨0, _⟩ => exact (rhs_blk_0 _ _).trans hk
    | ⟨1, _⟩ => exact rhs_blk_1 _ _)
  rw [el, er]
  rfl

/-! ## The payload at an entry -/

/-- The value the body stores, at entry `(p, q)` of the block: the feature block's row `p` against
    column `q` of the first weights, plus the message block's row `p` against column `q` of the second. -/
theorem payload_apply (x0 x1 : Vec Ideal S5000x64 .f32) (x2 x3 : Vec Ideal S64x64 .f32) (p : Fin 5000) (q : Fin 64) :
    k0_pay1 (F := Ideal) x0 x1 x2 x3 (ix2 p q)
      = (∑ k : Fin 64, x0 (ix2 p k) * x2 (ix2 k q)) + ∑ k : Fin 64, x1 (ix2 p k) * x3 (ix2 k q) := by
  unfold k0_pay1
  rw [shapeCast_self]
  refine (addf_apply _ _ _).trans ?_
  rw [blockProduct_apply, blockProduct_apply]
  rfl

end Cert.KernelIdeal.BlockValue

end
-- ==== Proof.DualProjection.lean ====
/-
  The mathematics of the claim, with no program in sight.

  A node's output row is its own feature row sent through `W1` plus its aggregated message row sent
  through `W2`.  Entry `(r, c)` of the product of a 50000 × 64 array `x` with a 64 × 64 array `w` is
  the sum over `k < 64` of `x[r, k] · w[k, c]`, and the result is the entrywise sum of two such
  products.  Everything is stated on the extended reals, index by index.  No law beyond reading a
  matrix product as this sum is needed to join the two programs: both add the same two sums in the
  same order, so finiteness of the inputs is never used.
-/
import Idealize.ShloMosaic.PureOps.Ideal
import Idealize.ShloMosaic.Lib.ValueIdx

noncomputable section

open scoped BigOperators

namespace Cert.DualProjection

open Idealize.ShloMosaic Idealize.ShloMosaic.ValueIdx

/-- Entry `(i 0, i 1)` of `x · w`: row `i 0` of `x` against column `i 1` of `w`. -/
def proj (x : (⟨2, ![50000, 64]⟩ : Shape).Idx → EReal) (w : (⟨2, ![64, 64]⟩ : Shape).Idx → EReal)
    (i : (⟨2, ![50000, 64]⟩ : Shape).Idx) : EReal :=
  ∑ k : Fin 64, x (ix2 (i 0) k) * w (ix2 k (i 1))

/-- `feat · w1 + agg · w2`, entry by entry. -/
def dualProj (feat agg : (⟨2, ![50000, 64]⟩ : Shape).Idx → EReal) (w1 w2 : (⟨2, ![64, 64]⟩ : Shape).Idx → EReal) :
    (⟨2, ![50000, 64]⟩ : Shape).Idx → EReal :=
  fun i => proj feat w1 i + proj agg w2 i

theorem dualProj_apply (feat agg : (⟨2, ![50000, 64]⟩ : Shape).Idx → EReal) (w1 w2 : (⟨2, ![64, 64]⟩ : Shape).Idx → EReal)
    (r : Fin 50000) (c : Fin 64) :
    dualProj feat agg w1 w2 (ix2 r c)
      = (∑ k : Fin 64, feat (ix2 r k) * w1 (ix2 k c)) + ∑ k : Fin 64, agg (ix2 r k) * w2 (ix2 k c) := rfl

end Cert.DualProjection

end
-- ==== Proof.HostPrefix.lean ====
/-
  The aggregated messages, as the host operations before the kernel leave them.

  For each edge the source node's feature row is gathered (a negative source index first wrapped by
  the node count), the edge's weight is subtracted from every entry of the row, and the rows are
  scatter-added into a zero array at the edges' destination nodes.  The kernel's second window stages
  exactly this array; it is read here as ONE term of the argument arrays and never opened: the
  reference forms the same term with the same operations.
-/
import proofs.«170860_j5866925326658_1_alg».proof.Proof.Gen.KernelIdeal.Frame
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]

/-- The aggregated messages `segment_sum (feat[src] - edge_weight, dst)` as a term of the features `x0`, the
    edge weights `x1`, the source indices `x4` and the destination indices `x5`. -/
def aggregated (x0 : (⟨S50000x64, .f32⟩ : BufTy).Contents (Elt F)) (x1 : (⟨S800000x1, .f32⟩ : BufTy).Contents (Elt F))
    (x4 x5 : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 x5)
    (subf
      (Host.gather gather_S50000x64_S800000x1_S800000x64_1_0_n_n_0_1_164 x0
        (broadcastInDim S800000x1 ![0] bcast_S800000_S800000x1_0
          (select (cmpi .slt x4 (broadcastInDim S800000 ![] bcast_S_S800000 (constantI S_ 32 0#32)))
            (addi x4 (broadcastInDim S800000 ![] bcast_S_S800000 (constantI S_ 32 50000#32))) x4)))
      (broadcastInDim S800000x64 ![0, 1] bcast_S800000x1_S800000x64_0_1 x1))

variable (m : (ℓ : Loc nD τ sig) → Buf (Elt F) ℓ)

/-- When the kernel is launched, the array its second window stages holds the aggregated messages of the
    argument arrays. -/
theorem V_main_v11 (c : Dev nD) :
    V m c main_v11 = aggregated (m ((c : Thread nD τ).loc main_arg0)) (m ((c : Thread nD τ).loc main_arg1))
      (m ((c : Thread nD τ).loc main_arg4)) (m ((c : Thread nD τ).loc main_arg5)) := by
  dsimp only [V, hostOps0]
  after_results
  rfl

end Cert.KernelIdeal.HostPrefix

end
-- ==== Proof.ArrayValue.lean ====
/-
  From blocks to the whole array.

  The grid has ten points; point `t` stages rows `5000·t … 5000·t + 4999` of the features and of the
  aggregated messages, both weight arrays whole, and writes back the same rows of the result.  An
  entry `(p, q)` of the block at point `t` is entry `(5000·t + p, q)` of the array, so what the body
  stores there — the block's row `p` against the weights' column `q`, twice, added — is the dual
  projection of the whole arrays at `(5000·t + p, q)`.  Every row `r` lies in the block of point
  `r / 5000`, so the ten blocks cover the array and the result array ends as the dual projection.
-/
import proofs.«170860_j5866925326658_1_alg».proof.Proof.Gen.KernelIdeal.Value
import proofs.«170860_j5866925326658_1_alg».proof.Proof.BlockPayload
import proofs.«170860_j5866925326658_1_alg».proof.Proof.DualProjection
import proofs.«170860_j5866925326658_1_alg».proof.Proof.HostPrefix

set_option maxRecDepth 16384

noncomputable section

open scoped BigOperators

namespace Cert.KernelIdeal.ArrayValue

open Cert.KernelIdeal Cert.KernelIdeal.Gen Cert.KernelIdeal.BlockValue Cert.KernelIdeal.HostPrefix Cert.DualProjection
open Idealize.ShloMosaic Idealize.ShloMosaic.TcCoe Idealize.ShloMosaic.ValueIdx Idealize.SL.Sem
open Idealize.ShloMosaic.Pipeline (Dat)

/-! ## One block against the whole arrays -/

/-- If the two row blocks `b0`, `b1` hold, on row `j 0`, row `i 0` of the arrays `feat`, `agg`, and the staged
    weights hold, on column `j 1`, column `i 1` of `w1`, `w2`, then the body's value at `j` is the dual
    projection of the arrays at `i`. -/
theorem payload_eq_dualProj (feat agg : S50000x64.Idx → EReal) (w1 w2 : S64x64.Idx → EReal)
    (b0 b1 : Vec Ideal S5000x64 .f32) (v1 v2 : Vec Ideal S64x64 .f32) (i : S50000x64.Idx) (j : S5000x64.Idx)
    (h0 : ∀ k : Fin 64, b0 (ix2 (j 0) k) = feat (ix2 (i 0) k))
    (h1 : ∀ k : Fin 64, b1 (ix2 (j 0) k) = agg (ix2 (i 0) k))
    (h2 : ∀ k : Fin 64, v1 (ix2 k (j 1)) = w1 (ix2 k (i 1)))
    (h3 : ∀ k : Fin 64, v2 (ix2 k (j 1)) = w2 (ix2 k (i 1))) :
    k0_pay1 (F := Ideal) b0 b1 v1 v2 j = dualProj feat agg w1 w2 i := by
  refine ((congrArg (k0_pay1 (F := Ideal) b0 b1 v1 v2) (eq_ix2 j)).trans (payload_apply b0 b1 v1 v2 (j 0) (j 1))).trans ?_
  unfold dualProj proj
  exact congrArg₂ (· + ·) (Finset.sum_congr rfl fun k _ => by rw [h0 k, h2 k])
    (Finset.sum_congr rfl fun k _ => by rw [h1 k, h3 k])

/-! ## The index maps, decided over the ten points -/

theorem hz : (![0, 0] : Fin 2 → Nat) = fun _ => 0 := funext fun a => by fin_cases a <;> rfl

/-- The row blocks of the features and of the messages move with the output's; every column block and both
    weight blocks stay at zero; the output's row block at point `t` is `t`. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem points : cfg0.N = 10 := by decide

/-! ## What a point writes back -/

/-- Point `t`'s write-back, for ANY four arrays of which the body's four input blocks are the blocks the
    windows stage at `t`: it is block `t` of the arrays' dual projection.  The feature and message blocks
    are read on the output block's rows, the weights whole. -/
theorem flushed_of (t : Fin cfg0.N) (A0 A1 : S50000x64.Idx → EReal) (A2 A3 : S64x64.Idx → EReal)
    (b0 b1 : Vec Ideal S5000x64 .f32) (b2 b3 : Vec Ideal S64x64 .f32)
    (h0 : b0 = ((cfg0.win 0).blk t).view.read (Elt Ideal) A0)
    (h1 : b1 = ((cfg0.win 1).blk t).view.read (Elt Ideal) A1)
    (h2 : b2 = ((cfg0.win 2).blk t).view.read (Elt Ideal) A2)
    (h3 : b3 = ((cfg0.win 3).blk t).view.read (Elt Ideal) A3) :
    (cfg0.win 4).cut (grid0.coords t) (out0_4 (F := Ideal) b0 b1 b2 b3)
      = ((cfg0.win 4).blk t).view.read (Elt Ideal) (dualProj A0 A1 A2 A3) := by
  unfold out0_4
  rw [View.canon_unit_zero hz]
  simp only [View.ld_unit_zero (S := S5000x64) hz, View.ld_unit_zero (S := S64x64) hz]
  obtain ⟨e0, e1, e2, e3, e4, e5, e6, e7, e8, e9⟩ := idx_facts t
  subst h0 h1 h2 h3
  funext j
  show k0_pay1 (F := Ideal) _ _ _ _ j = dualProj A0 A1 A2 A3 (((cfg0.win 4).blk t).view.emb j)
  refine payload_eq_dualProj A0 A1 A2 A3 _ _ _ _ (((cfg0.win 4).blk t).view.emb j) j ?_ ?_ ?_ ?_
  · intro k
    show A0 (((cfg0.win 0).blk t).view.emb (ix2 (j 0) k)) = A0 (ix2 ((((cfg0.win 4).blk t).view.emb j) 0) k)
    refine congrArg A0 (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 64 + 1 * k.val = k.val; omega
  · intro k
    show A1 (((cfg0.win 1).blk t).view.emb (ix2 (j 0) k)) = A1 (ix2 ((((cfg0.win 4).blk t).view.emb j) 0) k)
    refine congrArg A1 (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 64 + 1 * k.val = k.val; omega
  · intro k
    show A2 (((cfg0.win 2).blk t).view.emb (ix2 k (j 1))) = A2 (ix2 k ((((cfg0.win 4).blk t).view.emb j) 1))
    refine congrArg A2 (funext fun a => Fin.ext ?_)
    match a with
    | ⟨0, _⟩ => show win0_2.index t (0 : Fin 2) * 64 + 1 * k.val = k.val; omega
    | ⟨1, _⟩ => show win0_2.index t (1 : Fin 2) * 64 + 1 * (j 1).val = win0_4.index t (1 : Fin 2) * 64 + 1 * (j 1).val; omega
  · intro k
    show A3 (((cfg0.win 3).blk t).view.emb (ix2 k (j 1))) = A3 (ix2 k ((((cfg0.win 4).blk t).view.emb j) 1))
    refine congrArg A3 (funext fun a => Fin.ext ?_)
    match a with
    | ⟨0, _⟩ => show win0_3.index t (0 : Fin 2) * 64 + 1 * k.val = k.val; omega
    | ⟨1, _⟩ => show win0_3.index t (1 : Fin 2) * 64 + 1 * (j 1).val = win0_4.index t (1 : Fin 2) * 64 + 1 * (j 1).val; omega

variable (m : (ℓ : Loc nD τ sig) → Buf (Elt Ideal) ℓ) (ρ : Dev nD → PrngReg)

/-- Point `t` writes back block `t` of the dual projection of the arrays the four input windows stage. -/
theorem flushed_eq (c : Dev nD) (t : Fin cfg0.N) :
    (dats m 0 c).flushed 4 t = ((cfg0.win 4).blk t).view.read (Elt Ideal)
      (dualProj (V m c (Pipeline.arrRef spec0 0)) (V m c (Pipeline.arrRef spec0 1))
        (V m c (Pipeline.arrRef spec0 2)) (V m c (Pipeline.arrRef spec0 3))) := by
  rw [Value.flushed4]
  exact flushed_of t (V m c (Pipeline.arrRef spec0 0)) (V m c (Pipeline.arrRef spec0 1))
    (V m c (Pipeline.arrRef spec0 2)) (V m c (Pipeline.arrRef spec0 3))
    (iblk m c 0 t) (iblk m c 1 t) (iblk m c 2 t) (iblk m c 3 t)
    rfl rfl rfl rfl

/-! ## The blocks cover the array -/

/-- An index of the result array is in point `t`'s block iff each coordinate is in the block's range. -/
theorem mem_blk (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v12).slice (win0_4.rect t)).set ↔ _
  rw [View.set_slice_whole, Rect.mem_set_unit]
  exact Iff.rfl

/-- Row `r` is in the block of point `r / 5000`. -/
theorem cover (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ : ∃ t : Fin cfg0.N, t.val = (i 0).val / 5000 := ⟨⟨(i 0).val / 5000, by rw [points]; omega⟩, rfl⟩
  obtain ⟨-, -, -, -, -, -, -, -, e8, e9⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The result array after the run is the dual projection of the arrays the four input windows stage. -/
theorem final (c : Dev nD) :
    (dats m 0 c).arrAt 4 cfg0.N = dualProj (V m c (Pipeline.arrRef spec0 0)) (V m c (Pipeline.arrRef spec0 1))
      (V m c (Pipeline.arrRef spec0 2)) (V m c (Pipeline.arrRef spec0 3)) :=
  (dats m 0 c).arrAt_eq_of_cover 4 _ (fun t _ => flushed_eq m c t) cover

/-! ## The run, read -/

/-- Every weakly fair execution of the kernel's program ends with the result array at the dual projection of the
    features and the aggregated messages of the argument arrays, the arguments unchanged: the first, third and
    fourth windows stage argument arrays no host operation writes, the second the aggregated messages. -/
theorem run : θ_run defs (onTc (τ := τ) (main (F := Ideal))) ⟨m, fun _ => 0, ρ⟩ fun r => ∀ c : Dev nD,
      r.2.mem ((c : Thread nD τ).loc main_v12)
        = dualProj (m ((c : Thread nD τ).loc main_arg0))
            (aggregated (m ((c : Thread nD τ).loc main_arg0)) (m ((c : Thread nD τ).loc main_arg1)) (m ((c : Thread nD τ).loc main_arg4)) (m ((c : Thread nD τ).loc main_arg5)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (by
      have e0 : V m c (Pipeline.arrRef spec0 0) = m ((c : Thread nD τ).loc main_arg0) := V_main_arg0 m c
      have e1 : V m c (Pipeline.arrRef spec0 1) = aggregated (m ((c : Thread nD τ).loc main_arg0)) (m ((c : Thread nD τ).loc main_arg1)) (m ((c : Thread nD τ).loc main_arg4)) (m ((c : Thread nD τ).loc main_arg5)) := V_main_v11 m c
      have e2 : V m c (Pipeline.arrRef spec0 2) = m ((c : Thread nD τ).loc main_arg2) := V_main_arg2 m c
      have e3 : V m c (Pipeline.arrRef spec0 3) = m ((c : Thread nD τ).loc main_arg3) := V_main_arg3 m c
      rw [e0, e1, e2, e3])), (h c).2⟩)
    (Value.run_blocks m ρ)

end Cert.KernelIdeal.ArrayValue

end
-- ==== Proof.ReferenceValue.lean ====
/-
  The reference's result, read at an entry.

  The reference's last three operations are two whole-array products — the features with the first
  weights, the aggregated messages with the second — and their entrywise sum.  On the extended reals
  each product at entry `(r, c)` is the sum over `k < 64` of row `r` against column `c`, so the result
  is the dual projection of the features and the aggregated messages.  The aggregation itself (a
  gather of source rows, minus the edge weights, scatter-added at the destinations) is kept as one
  unopened term: the kernel forms it with the same host operations.
-/
import proofs.«170860_j5866925326658_1_alg».proof.Proof.Gen.ReferenceIdeal.Read
import proofs.«170860_j5866925326658_1_alg».proof.Proof.DualProjection

noncomputable section

open scoped BigOperators

namespace Cert.ReferenceIdeal.RefValue

open Cert.ReferenceIdeal Cert.ReferenceIdeal.Gen Cert.ReferenceIdeal.Read Cert.DualProjection
open Idealize.ShloMosaic Idealize.ShloMosaic.ValueIdx

/-- The left operand of the first product at contraction index `k`: row `i 0`, column `k`. -/
theorem lidx12_eq (i : S50000x64.Idx) (k : Fin 64) : lidx_main_v12 i k = ix2 (i 0) k :=
  funext fun a => by match a with | ⟨0, _⟩ => rfl | ⟨1, _⟩ => rfl
/-- Its right operand: row `k`, column `i 1`. -/
theorem ridx12_eq (i : S50000x64.Idx) (k : Fin 64) : ridx_main_v12 i k = ix2 k (i 1) :=
  funext fun a => by match a with | ⟨0, _⟩ => rfl | ⟨1, _⟩ => rfl
/-- The same for the second product. -/
theorem lidx13_eq (i : S50000x64.Idx) (k : Fin 64) : lidx_main_v13 i k = ix2 (i 0) k :=
  funext fun a => by match a with | ⟨0, _⟩ => rfl | ⟨1, _⟩ => rfl
theorem ridx13_eq (i : S50000x64.Idx) (k : Fin 64) : ridx_main_v13 i k = ix2 k (i 1) :=
  funext fun a => by match a with | ⟨0, _⟩ => rfl | ⟨1, _⟩ => rfl

/-- The reference's result is the dual projection of the features and of ITS aggregated messages. -/
theorem result_eq (x0 : (⟨S50000x64, .f32⟩ : BufTy).Contents (Elt Ideal)) (x1 : (⟨S800000x1, .f32⟩ : BufTy).Contents (Elt Ideal))
    (x2 x3 : (⟨S64x64, .f32⟩ : BufTy).Contents (Elt Ideal)) (x4 x5 : (⟨S800000, .i32⟩ : BufTy).Contents (Elt Ideal)) :
    val_main_v14 (F := Ideal) x0 x1 x2 x3 x4 x5
      = dualProj x0 (val_main_v11 (F := Ideal) x0 x1 x4 x5) x2 x3 := by
  funext i
  rw [val_main_v14_apply, val_main_v12_apply, val_main_v13_apply]
  simp only [lidx12_eq, ridx12_eq, lidx13_eq, ridx13_eq]
  rfl

end Cert.ReferenceIdeal.RefValue

end
-- ==== Proof.lean ====
/-
  The certificate of a graph-convolution layer: the kernel against its jnp reference, over the reals.

  Both programs first form, with the same host operations, the aggregated messages
  `agg = segment_sum (feat[src] - edge_weight, dst)` — for each edge the source node's feature row minus
  the edge's weight, summed at the edge's destination node.  The reference then computes
  `feat · W1 + agg · W2` with two whole-array products; the kernel computes it ten row blocks of 5000 at
  a time, each block narrowed, multiplied into a zero accumulator and the two products added.

  On the extended reals the narrowing is the identity, and a product into a zero accumulator, like the
  host's product, is the sum over `k < 64` of row against column.  So entry `(r, c)` of both results is
  `Σₖ feat[r,k]·W1[k,c] + Σₖ agg[r,k]·W2[k,c]` (Proof/DualProjection.lean): the same two sums added in
  the same order, with `agg` the same unopened term on both sides.  No law that needs finite inputs is
  used, so the precondition is never opened.

  * Proof/BlockPayload.lean   — what one grid point stores, read at an entry of its block;
  * Proof/HostPrefix.lean     — the aggregated messages as the array the kernel's second window stages;
  * Proof/ArrayValue.lean     — the ten blocks cover the result array: it ends as the dual projection;
  * Proof/ReferenceValue.lean — the reference's last stage is the dual projection.
  The three frames are the generated ones (the reference's is its generated run with the result
  dropped); the idealization rewrote nothing, so `preserves` is `True`.
-/
import proofs.«170860_j5866925326658_1_alg».proof.Defs
import proofs.«170860_j5866925326658_1_alg».proof.Proof.Gen.Kernel
import proofs.«170860_j5866925326658_1_alg».proof.Proof.Gen.Kernel.Skeleton
import proofs.«170860_j5866925326658_1_alg».proof.Proof.Gen.Kernel.Launch
import proofs.«170860_j5866925326658_1_alg».proof.Proof.Gen.Kernel.Points
import proofs.«170860_j5866925326658_1_alg».proof.Proof.Gen.Kernel.Frame
import proofs.«170860_j5866925326658_1_alg».proof.Proof.Gen.KernelIdeal
import proofs.«170860_j5866925326658_1_alg».proof.Proof.Gen.KernelIdeal.Skeleton
import proofs.«170860_j5866925326658_1_alg».proof.Proof.Gen.KernelIdeal.Launch
import proofs.«170860_j5866925326658_1_alg».proof.Proof.Gen.KernelIdeal.Points
import proofs.«170860_j5866925326658_1_alg».proof.Proof.Gen.KernelIdeal.Frame
import proofs.«170860_j5866925326658_1_alg».proof.Proof.Gen.ReferenceIdeal
import proofs.«170860_j5866925326658_1_alg».proof.Proof.Gen.Pre_finite_inputs
import proofs.«170860_j5866925326658_1_alg».proof.Proof.Gen.KernelIdeal.Value
import proofs.«170860_j5866925326658_1_alg».proof.Proof.Gen.ReferenceIdeal.Run
import proofs.«170860_j5866925326658_1_alg».proof.Proof.Gen.ReferenceIdeal.Read
import proofs.«170860_j5866925326658_1_alg».proof.Proof.ArrayValue
import proofs.«170860_j5866925326658_1_alg».proof.Proof.ReferenceValue
import Idealize.ShloMosaic.Adequacy
import Idealize.ShloMosaic.Init

noncomputable section

namespace Cert.Proof

open Idealize.ShloMosaic Idealize.SL.Sem

/-- The kernel's aggregated messages and the reference's are one term of the arguments: the same host
    operations over the same shapes and dimension numbers. -/
theorem aggregated_eq (x0 : (⟨Cert.KernelIdeal.S50000x64, .f32⟩ : BufTy).Contents (Elt Ideal))
    (x1 : (⟨Cert.KernelIdeal.S800000x1, .f32⟩ : BufTy).Contents (Elt Ideal))
    (x4 x5 : (⟨Cert.KernelIdeal.S800000, .i32⟩ : BufTy).Contents (Elt Ideal)) :
    Cert.KernelIdeal.HostPrefix.aggregated (F := Ideal) x0 x1 x4 x5
      = Cert.ReferenceIdeal.Read.val_main_v11 (F := Ideal) x0 x1 x4 x5 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the dual projection of the features and the aggregated messages of arguments
    that agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v14_eq, Cert.ReferenceIdeal.RefValue.result_eq, ← aggregated_eq,
    a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
